-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x64 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S1x64 : Shape := ⟨2, ![1, 64]⟩
abbrev S2000x64 : Shape := ⟨2, ![2000, 64]⟩
abbrev S2000x128 : Shape := ⟨2, ![2000, 128]⟩

abbrev nBuf : Space → Nat
  | .hbm => 31
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S2000x64, .f32⟩
  | .local _ .vmem, ⟨11, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .f32 = 32 ∨ (Rect.block (s := S50000x64) S2000x64.size (cc0_transform_8 i) (hinb0_8 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000 : Shape := ⟨1, ![50000]⟩
abbrev S50000x1 : Shape := ⟨2, ![50000, 1]⟩
abbrev S50000x128 : Shape := ⟨2, ![50000, 128]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000x64, .f32⟩
  | .hbm, ⟨13, _⟩ => ⟨S800000x1, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S50000x64, .f32⟩
  | .hbm, ⟨27, _⟩ => ⟨S50000x128, .f32⟩
  | .hbm, ⟨28, _⟩ => ⟨S50000x64, .f32⟩
  | .hbm, ⟨29, _⟩ => ⟨S1x64, .f32⟩
  | .hbm, ⟨30, _⟩ => ⟨S50000x64, .f32⟩
  | .hbm, ⟨31, _⟩ => ⟨S50000x64, .f32⟩
  | .hbm, ⟨32, _⟩ => ⟨S_, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S50000x64 : S_.BroadcastsInDim S50000x64 (![] : Fin 0 → Fin S50000x64.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibDenseLayer.lean ====
/-
  ONE DENSE LAYER ON A BLOCK OF ROWS, SET BESIDE THE SAME LAYER ON THE WHOLE ARRAY, READ AT ONE ENTRY.

  A dense layer sends a row x of K numbers to the row  q ↦ (Σ_k x_k · w(k, q)) + c(0, q),  optionally followed by the
  rectifier max(·, 0). It acts on every row by itself. So if row p of a block [n, K] is row r of an array [N, K], then
  entry (p, q) of the layer applied to the block is entry (r, q) of the layer applied to the array:

  * product_entry: the matrix unit's product into a zero accumulator, both operands narrowed on the way in, against
    the host's product (a change of float format is the identity on the extended reals, and both products are the
    sum over k of left (row, k) · right (k, q), in the same order);
  * hidden_entry: product, bias row broadcast down the rows, rectifier;
  * out_entry: product and bias row only.

  The bias is a 1 x b row on both sides; the block broadcasts it as a vector broadcast, the array along its two axes.
  Generic in the extents; a program's dimension numbers enter through an equation with the plain rows-by-columns
  record.
-/
import proofs.«109640_j20358144983598_1_alg».proof.Proof.LibBlocks

noncomputable section

open scoped BigOperators

namespace Cert.LibDenseLayer

open Idealize.ShloMosaic Idealize.ShloMosaic.ValueIdx

variable {n N K b : Nat}

/-- The product: entry (p, q) of block times matrix is entry (r, q) of array times matrix, when block row p is array
    row r. -/
theorem product_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (X : FVec Ideal ⟨2, ![n, K]⟩ .f32) (XX : FVec Ideal ⟨2, ![N, K]⟩ .f32) (w : FVec Ideal ⟨2, ![K, b]⟩ .f32)
    (p : Fin n) (r : Fin N) (h0 : ∀ k : Fin K, X (ix2 p k) = XX (ix2 r k)) (q : Fin b) :
    matmul dk none (truncf .bf16 X hlt) (truncf .bf16 w hlt) (constant ⟨2, ![n, b]⟩ .f32 0x00000000#32) (ix2 p q)
      = Host.dotGeneral dr none XX w (ix2 r q) := by
  show FloatOps.matmul dk none _ _ _ _ = FloatOps.dotGeneral dr none .single XX w (ix2 r q)
  rw [Cert.LibBlocks.matmul_plain_apply dk hdk, Cert.LibBlocks.dotGeneral_plain_apply dr hdr]
  refine Finset.sum_congr rfl fun k _ => ?_
  rw [truncf_apply, truncf_apply, h0 k]

/-- The bias row broadcast down the rows of a block, at entry (p, q): the row's entry q. -/
theorem bias_block_entry
    (hc1 : (⟨2, ![1, b]⟩ : Shape).ShapeCasts ⟨2, ![1, b]⟩) (hb : (⟨2, ![1, b]⟩ : Shape).Broadcasts ⟨2, ![n, b]⟩)
    (c : FVec Ideal ⟨2, ![1, b]⟩ .f32) (p : Fin n) (q : Fin b) :
    broadcastTo ⟨2, ![n, b]⟩ (shapeCast ⟨2, ![1, b]⟩ c hc1) hb (ix2 p q) = c (ix2 (0 : Fin 1) q) := by
  rw [shapeCast_self]
  exact broadcastTo_apply c hb (ix2 p q) (ix2 (0 : Fin 1) q) (fun a => by
    match a with
    | ⟨0, _⟩ => rfl
    | ⟨1, _⟩ =>
      show q.val = if b = 1 then 0 else q.val
      have := q.isLt
      split_ifs <;> omega)

/-- The bias row broadcast along both axes of the array, at entry (r, q): the row's entry q. -/
theorem bias_array_entry
    (hbd : (⟨2, ![1, b]⟩ : Shape).BroadcastsInDim ⟨2, ![N, b]⟩ ![0, 1])
    (c : FVec Ideal ⟨2, ![1, b]⟩ .f32) (r : Fin N) (q : Fin b) :
    broadcastInDim ⟨2, ![N, b]⟩ ![0, 1] hbd c (ix2 r q) = c (ix2 (0 : Fin 1) q) :=
  broadcastInDim_apply ![0, 1] hbd c (ix2 r q) (ix2 (0 : Fin 1) q) (fun a => by
    match a with
    | ⟨0, _⟩ => rfl
    | ⟨1, _⟩ =>
      show q.val = if b = 1 then 0 else q.val
      have := q.isLt
      split_ifs <;> omega)

/-- Product and bias: entry (p, q) on the block is entry (r, q) on the array. -/
theorem out_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    addf (matmul dk none (truncf .bf16 X hlt) (truncf .bf16 w hlt) (constant ⟨2, ![n, b]⟩ .f32 0x00000000#32))
        (broadcastTo ⟨2, ![n, b]⟩ (shapeCast ⟨2, ![1, b]⟩ c hc1) hb) (ix2 p q)
      = addf (Host.dotGeneral dr none XX w) (broadcastInDim ⟨2, ![N, b]⟩ ![0, 1] hbd c) (ix2 r q) := by
  rw [addf_apply, addf_apply, product_entry dk hdk dr hdr hlt X XX w p r h0 q, bias_block_entry hc1 hb c p q,
    bias_array_entry hbd c r q]

/-- Product, bias and rectifier: entry (p, q) on the block is entry (r, q) on the array. -/
theorem hidden_entry
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hlt : FTy.bf16.bits < FTy.f32.bits)
    (hc1 : (⟨2, ![1, b]⟩ : Shape).ShapeCasts ⟨2, ![1, b]⟩) (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (X : FVec Ideal ⟨2, ![n, K]⟩ .f32) (XX : FVec Ideal ⟨2, ![N, K]⟩ .f32) (w : FVec Ideal ⟨2, ![K, b]⟩ .f32)
    (c : FVec Ideal ⟨2, ![1, b]⟩ .f32)
    (p : Fin n) (r : Fin N) (h0 : ∀ k : Fin K, X (ix2 p k) = XX (ix2 r k)) (q : Fin b) :
    maximumf (addf (matmul dk none (truncf .bf16 X hlt) (truncf .bf16 w hlt) (constant ⟨2, ![n, b]⟩ .f32 0x00000000#32))
          (broadcastTo ⟨2, ![n, b]⟩ (shapeCast ⟨2, ![1, b]⟩ c hc1) hb))
        (broadcast ⟨2, ![n, b]⟩ (Scalar.ofBits (F := Ideal) .f32 0x00000000#32)) (ix2 p q)
      = maximumf (addf (Host.dotGeneral dr none XX w) (broadcastInDim ⟨2, ![N, b]⟩ ![0, 1] hbd c))
        (broadcastInDim ⟨2, ![N, b]⟩ ![] hz (constant (F := Ideal) ⟨0, ![]⟩ .f32 0x00000000#32)) (ix2 r q) := by
  rw [maximumf_apply, maximumf_apply, out_entry dk hdk dr hdr hlt hc1 hb hbd X XX w c p r h0 q,
    broadcastInDim_apply ![] hz (constant (F := Ideal) ⟨0, ![]⟩ .f32 0x00000000#32) (ix2 r q) ix0 (fun a => a.elim0)]
  rfl

end Cert.LibDenseLayer

end
-- ==== Proof.LibJoinCols.lean ====
/-
  TWO ARRAYS JOINED SIDE BY SIDE, READ AT ONE ELEMENT.

  An array [n, a] and an array [n, b] joined along the column axis give an array [n, c] with c = a + b: element (p, k)
  is the left array's (p, k) when k < a and the right array's (p, k - a) otherwise (joined_left, joined_right). So if
  row p of two small arrays is row r of two large ones, piece by piece, then row p of the small joined array is row r
  of the large joined array (joined_row_eq): joining commutes with taking a block of rows.

  Generic in the extents and in the element type.
-/
import Idealize.ShloMosaic.Lib.Pipeline.Value
import Idealize.ShloMosaic.Lib.ValueIdx

namespace Cert.LibJoinCols

open Idealize.ShloMosaic Idealize.ShloMosaic.ValueIdx

variable {α : Type}

/-- The joined width is the sum of the two widths. -/
theorem width_eq {n a b c : Nat}
    (h : Shape.Concatenates [(⟨2, ![n, a]⟩ : Shape), ⟨2, ![n, b]⟩] ⟨2, ![n, c]⟩ 1) : a + b = c := by
  have e := h.2.2
  simp only [List.map, List.sum_cons, List.sum_nil, dite_true, Nat.add_zero] at e
  exact e

/-- A column of the left part: element (p, k) of the joined array is element (p, k) of the left array. -/
theorem joined_left {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₁ : Fin a) (hk : k₁.val = k.val) :
    concatenate ⟨2, ![n, c]⟩ 1 [⟨⟨2, ![n, a]⟩, x⟩, ⟨⟨2, ![n, b]⟩, y⟩] h (ix2 p k) = x (ix2 p k₁) :=
  concatenate_pair_apply_left 1 x y h (ix2 p k) rfl (ix2 p k₁) (fun d => by
    match d with
    | ⟨0, _⟩ => rfl
    | ⟨1, _⟩ => exact hk)

/-- A column of the right part: element (p, k) of the joined array is element (p, k - a) of the right array. -/
theorem joined_right {n a b c : Nat}
    (h : Shape.Concatenates [(⟨2, ![n, a]⟩ : Shape), ⟨2, ![n, b]⟩] ⟨2, ![n, c]⟩ 1)
    (x : (⟨2, ![n, a]⟩ : Shape).Idx → α) (y : (⟨2, ![n, b]⟩ : Shape).Idx → α)
    (p : Fin n) (k : Fin c) (k₂ : Fin b) (hk : k₂.val + a = k.val) :
    concatenate ⟨2, ![n, c]⟩ 1 [⟨⟨2, ![n, a]⟩, x⟩, ⟨⟨2, ![n, b]⟩, y⟩] h (ix2 p k) = y (ix2 p k₂) :=
  concatenate_pair_apply_right 1 x y h (ix2 p k) rfl rfl (ix2 p k₂) (fun d hd => by
    match d with
    | ⟨0, _⟩ => rfl
    | ⟨1, _⟩ => exact absurd rfl hd) hk

/-- Joining commutes with taking rows: if row p of x is row r of X and row p of y is row r of Y, then row p of x
    joined with y is row r of X joined with Y. -/
theorem joined_row_eq {n N a b c : Nat}
    (h₁ : Shape.Concatenates [(⟨2, ![n, a]⟩ : Shape), ⟨2, ![n, b]⟩] ⟨2, ![n, c]⟩ 1)
    (h₂ : Shape.Concatenates [(⟨2, ![N, a]⟩ : Shape), ⟨2, ![N, b]⟩] ⟨2, ![N, c]⟩ 1)
    (x : (⟨2, ![n, a]⟩ : Shape).Idx → α) (y : (⟨2, ![n, b]⟩ : Shape).Idx → α)
    (X : (⟨2, ![N, a]⟩ : Shape).Idx → α) (Y : (⟨2, ![N, b]⟩ : Shape).Idx → α)
    (p : Fin n) (r : Fin N)
    (hx : ∀ k : Fin a, x (ix2 p k) = X (ix2 r k)) (hy : ∀ k : Fin b, y (ix2 p k) = Y (ix2 r k)) (k : Fin c) :
    concatenate ⟨2, ![n, c]⟩ 1 [⟨⟨2, ![n, a]⟩, x⟩, ⟨⟨2, ![n, b]⟩, y⟩] h₁ (ix2 p k)
      = concatenate ⟨2, ![N, c]⟩ 1 [⟨⟨2, ![N, a]⟩, X⟩, ⟨⟨2, ![N, b]⟩, Y⟩] h₂ (ix2 r k) := by
  have hc := width_eq h₁
  have hkc := k.isLt
  by_cases hk : k.val < a
  · rw [joined_left h₁ x y p k ⟨k.val, hk⟩ rfl, joined_left h₂ X Y r k ⟨k.val, hk⟩ rfl]
    exact hx _
  · have hk2 : k.val - a < b := by omega
    rw [joined_right h₁ x y p k ⟨k.val - a, hk2⟩ (by show k.val - a + a = k.val; omega),
      joined_right h₂ X Y r k ⟨k.val - a, hk2⟩ (by show k.val - a + a = k.val; omega)]
    exact hy _

end Cert.LibJoinCols
-- ==== Proof.MlpRows.lean ====
/-
  THE BLOCK BODY IS THE REFERENCE'S THREE LAYERS, ROW BY ROW.

  Both programs first form, by the same host operations, the per-node mean of the incoming edge features
  (aggregate: the edge rows added up by receiver, divided by max(count, 1)). Then each row of the result is

      out(r, ·) = L2 (relu (L1 (relu (L0 (aggregate(r, ·) ++ v(r, ·)))))),    Li x = x · Wi + bi,

  a function of row r of the two [50000, 64] arrays alone. The reference applies the three layers to the whole
  arrays; the kernel applies them to blocks of 2000 consecutive rows, on the matrix unit with every operand narrowed
  on the way in, which on the extended reals changes nothing. So entry (p, q) of the kernel's block body is entry
  (r, q) of the reference's layers whenever block row p is array row r of both arrays (block_entry): the two joined
  rows agree, then one layer after the other agrees entry by entry.
-/
import proofs.«109640_j20358144983598_1_alg».proof.Proof.Gen.KernelIdeal.Frame
import proofs.«109640_j20358144983598_1_alg».proof.Proof.Gen.ReferenceIdeal
import proofs.«109640_j20358144983598_1_alg».proof.Proof.LibDenseLayer
import proofs.«109640_j20358144983598_1_alg».proof.Proof.LibJoinCols

noncomputable section

namespace Cert.MlpRows

open Idealize.ShloMosaic Idealize.ShloMosaic.ValueIdx

/-! ## The reference's result, as functions of the arguments -/

section Reference

open Cert.ReferenceIdeal Cert.ReferenceIdeal.Facts₀

/-- The per-node mean of the incoming edge features: the rows of e added up by receiver (row 1 of the edge index),
    divided by the number of incoming edges, or by 1 where there is none. -/
def aggregate (ei : (⟨S2x800000, .i32⟩ : BufTy).Contents (Elt Ideal)) (e : FVec Ideal S800000x64 .f32) :
    FVec Ideal S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0
        (shapeCast S800000 (extractStridedSlice S1x800000 ![1, 0] ei slices_S2x800000_S1x800000_1_0) shapeCasts_S1x800000_S800000))
      e)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0
              (shapeCast S800000 (extractStridedSlice S1x800000 ![1, 0] ei slices_S2x800000_S1x800000_1_0) shapeCasts_S1x800000_S800000))
            (broadcastInDim S800000 ![] bcast_S_S800000 (constant S_ .f32 0x3F800000#32)))
          (broadcastInDim S50000 ![] bcast_S_S50000 (constant S_ .f32 0x3F800000#32)))))

/-- A bias vector as a 1 x 64 row. -/
def biasRow (b : FVec Ideal S64 .f32) : FVec Ideal S1x64 .f32 := broadcastInDim S1x64 ![1] bcast_S64_S1x64_1 b

/-- The three layers on whole arrays: a and v joined side by side, then relu(· W0 + c0), relu(· W1 + c1), · W2 + c2,
    each bias a 1 x 64 row broadcast down the rows. -/
def layers (a v : FVec Ideal S50000x64 .f32)
    (w0 : FVec Ideal S128x64 .f32) (c0 : FVec Ideal S1x64 .f32)
    (w1 : FVec Ideal S64x64 .f32) (c1 : FVec Ideal S1x64 .f32)
    (w2 : FVec Ideal S64x64 .f32) (c2 : FVec Ideal S1x64 .f32) : FVec Ideal S50000x64 .f32 :=
  addf (Host.dotGeneral dot_S50000x64_S64x64_S50000x64_1_0_0_1_n_n none
      (maximumf (addf (Host.dotGeneral dot_S50000x64_S64x64_S50000x64_1_0_0_1_n_n none
          (maximumf (addf (Host.dotGeneral dot_S50000x128_S128x64_S50000x64_1_0_0_1_n_n none
              (concatenate S50000x128 1 [⟨S50000x64, a⟩, ⟨S50000x64, v⟩] concatenates_S50000x64_S50000x64_S50000x128_d1) w0)
            (broadcastInDim S50000x64 ![0, 1] bcast_S1x64_S50000x64_0_1 c0))
            (broadcastInDim S50000x64 ![] bcast_S_S50000x64 (constant S_ .f32 0x00000000#32))) w1)
        (broadcastInDim S50000x64 ![0, 1] bcast_S1x64_S50000x64_0_1 c1))
        (broadcastInDim S50000x64 ![] bcast_S_S50000x64 (constant S_ .f32 0x00000000#32))) w2)
    (broadcastInDim S50000x64 ![0, 1] bcast_S1x64_S50000x64_0_1 c2)

end Reference

/-! ## One block against the whole arrays -/

section Kernel

open Cert.KernelIdeal Cert.KernelIdeal.Facts₀

/-- Entry (p, q) of the kernel's body on a block is entry (r, q) of the reference's layers on the whole arrays, when
    row p of the two row blocks is row r of the two arrays and the weights and bias rows are the same. -/
theorem block_entry (x0 x1 : Vec Ideal S2000x64 .f32) (w0 : Vec Ideal S128x64 .f32) (w1 w2 : Vec Ideal S64x64 .f32)
    (c0 c1 c2 : Vec Ideal S1x64 .f32)
    (a v : FVec Ideal Cert.ReferenceIdeal.S50000x64 .f32)
    (W0 : FVec Ideal Cert.ReferenceIdeal.S128x64 .f32) (W1 W2 : FVec Ideal Cert.ReferenceIdeal.S64x64 .f32)
    (C0 C1 C2 : FVec Ideal Cert.ReferenceIdeal.S1x64 .f32)
    (hw0 : w0 = W0) (hw1 : w1 = W1) (hw2 : w2 = W2) (hc0 : c0 = C0) (hc1 : c1 = C1) (hc2 : c2 = C2)
    (p : Fin 2000) (r : Fin 50000)
    (ha : ∀ k : Fin 64, x0 (ix2 p k) = a (ix2 r k)) (hv : ∀ k : Fin 64, x1 (ix2 p k) = v (ix2 r k)) (q : Fin 64) :
    Cert.KernelIdeal.Gen.k0_pay1 (F := Ideal) x0 x1 w0 w1 w2 c0 c1 c2 (ix2 p q) = layers a v W0 C0 W1 C1 W2 C2 (ix2 r q) := by
  subst hw0 hw1 hw2 hc0 hc1 hc2
  unfold Cert.KernelIdeal.Gen.k0_pay1 layers
  exact Cert.LibDenseLayer.out_entry dot_S2000x64_S64x64_S2000x64_1_0_0_1_n_n rfl
    Cert.ReferenceIdeal.dot_S50000x64_S64x64_S50000x64_1_0_0_1_n_n rfl bitsLt_bf16_f32
    shapeCasts_S1x64_S1x64 broadcasts_S1x64_S2000x64 Cert.ReferenceIdeal.Facts₀.bcast_S1x64_S50000x64_0_1
    _ _ w2 c2 p r
    (fun k => Cert.LibDenseLayer.hidden_entry dot_S2000x64_S64x64_S2000x64_1_0_0_1_n_n rfl
      Cert.ReferenceIdeal.dot_S50000x64_S64x64_S50000x64_1_0_0_1_n_n rfl bitsLt_bf16_f32
      shapeCasts_S1x64_S1x64 broadcasts_S1x64_S2000x64 Cert.ReferenceIdeal.Facts₀.bcast_S1x64_S50000x64_0_1
      Cert.ReferenceIdeal.Facts₀.bcast_S_S50000x64
      _ _ w1 c1 p r
      (fun k' => Cert.LibDenseLayer.hidden_entry dot_S2000x128_S128x64_S2000x64_1_0_0_1_n_n rfl
        Cert.ReferenceIdeal.dot_S50000x128_S128x64_S50000x64_1_0_0_1_n_n rfl bitsLt_bf16_f32
        shapeCasts_S1x64_S1x64 broadcasts_S1x64_S2000x64 Cert.ReferenceIdeal.Facts₀.bcast_S1x64_S50000x64_0_1
        Cert.ReferenceIdeal.Facts₀.bcast_S_S50000x64
        _ _ w0 c0 p r
        (fun k'' => Cert.LibJoinCols.joined_row_eq concatenates_S2000x64_S2000x64_S2000x128_d1
          Cert.ReferenceIdeal.Facts₀.concatenates_S50000x64_S50000x64_S50000x128_d1
          (shapeCast S2000x64 x0 shapeCasts_S2000x64_S2000x64) x1 a v p r
          (fun k => by rw [shapeCast_self]; exact ha k) hv k'')
        k')
      k)
    q

end Kernel

end Cert.MlpRows

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.MlpArray.lean ====
/-
  FROM THE BLOCKS TO THE WHOLE RESULT ARRAY.

  The grid has 25 points. At point t the two row windows (the aggregate and v) and the output window are at rows
  2000 t … 2000 t + 1999, all 64 columns, and the six weight and bias windows are the whole of their arrays. So row p
  of the row blocks at point t is row 2000 t + p of the arrays, the block body at (p, q) is the reference's result at
  (2000 t + p, q) (Cert.MlpRows.block_entry), and what point t writes back is block t of the reference's result
  (flushed_eq). Row r lies in the block of point r / 2000, so the 25 blocks cover the array and it ends holding the
  reference's result (final), with the arguments unchanged (run).

  The arrays the region finds that are not arguments are read off the host operations before it: the aggregate, by the
  same operations as the reference's, and the three bias vectors reshaped to 1 x 64 rows, which is the reference's
  broadcast along axis 1.
-/
import proofs.«109640_j20358144983598_1_alg».proof.Proof.Gen.KernelIdeal.Value
import proofs.«109640_j20358144983598_1_alg».proof.Proof.MlpRows
import proofs.«109640_j20358144983598_1_alg».proof.Proof.LibLayout
import Idealize.ShloMosaic.Lib.StableHlo.Run

set_option maxRecDepth 16384

noncomputable section

namespace Cert.MlpArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The reference's result of the kernel's own nine argument arrays on core c. -/
abbrev expected (c : Dev nD) : FVec Ideal Cert.ReferenceIdeal.S50000x64 .f32 :=
  Cert.MlpRows.layers
    (Cert.MlpRows.aggregate (m ((c : Thread nD τ).loc main_arg1)) (m ((c : Thread nD τ).loc main_arg2)))
    (m ((c : Thread nD τ).loc main_arg0))
    (m ((c : Thread nD τ).loc main_arg3)) (Cert.MlpRows.biasRow (m ((c : Thread nD τ).loc main_arg4)))
    (m ((c : Thread nD τ).loc main_arg5)) (Cert.MlpRows.biasRow (m ((c : Thread nD τ).loc main_arg6)))
    (m ((c : Thread nD τ).loc main_arg7)) (Cert.MlpRows.biasRow (m ((c : Thread nD τ).loc main_arg8)))

/-! ## The arrays the host operations wrote before the region -/

/-- The region finds the aggregate of the edge index and the edge features. -/
theorem found_aggregate (c : Dev nD) :
    (V m c main_v13 : FVec Ideal S50000x64 .f32)
      = Cert.MlpRows.aggregate (m ((c : Thread nD τ).loc main_arg1)) (m ((c : Thread nD τ).loc main_arg2)) := by
  dsimp only [V, hostOps0]
  after_results
  rfl

/-- The region finds the first bias as the 1 x 64 row the reference broadcasts. -/
theorem found_bias0 (c : Dev nD) :
    (V m c main_v14 : FVec Ideal S1x64 .f32) = Cert.MlpRows.biasRow (m ((c : Thread nD τ).loc main_arg4)) := by
  have e : (V m c main_v14 : FVec Ideal S1x64 .f32)
      = shapeCast S1x64 (m ((c : Thread nD τ).loc main_arg4) : FVec Ideal S64 .f32) shapeCasts_S64_S1x64 := by
    dsimp only [V, hostOps0]
    after_results
    rfl
  rw [e]
  exact Cert.Proof.Layout.reshape_row_eq_broadcastInDim _ _ _

/-- The second bias. -/
theorem found_bias1 (c : Dev nD) :
    (V m c main_v15 : FVec Ideal S1x64 .f32) = Cert.MlpRows.biasRow (m ((c : Thread nD τ).loc main_arg6)) := by
  have e : (V m c main_v15 : FVec Ideal S1x64 .f32)
      = shapeCast S1x64 (m ((c : Thread nD τ).loc main_arg6) : FVec Ideal S64 .f32) shapeCasts_S64_S1x64 := by
    dsimp only [V, hostOps0]
    after_results
    rfl
  rw [e]
  exact Cert.Proof.Layout.reshape_row_eq_broadcastInDim _ _ _

/-- The third bias. -/
theorem found_bias2 (c : Dev nD) :
    (V m c main_v16 : FVec Ideal S1x64 .f32) = Cert.MlpRows.biasRow (m ((c : Thread nD τ).loc main_arg8)) := by
  have e : (V m c main_v16 : FVec Ideal S1x64 .f32)
      = shapeCast S1x64 (m ((c : Thread nD τ).loc main_arg8) : FVec Ideal S64 .f32) shapeCasts_S64_S1x64 := by
    dsimp only [V, hostOps0]
    after_results
    rfl
  rw [e]
  exact Cert.Proof.Layout.reshape_row_eq_broadcastInDim _ _ _

/-! ## Where each window's block lies -/

theorem zero_offsets : (![0, 0] : Fin 2 → Nat) = fun _ => 0 := funext fun a => by fin_cases a <;> rfl

/-- The printed index maps over the grid: the two row windows and the output window are at block row t, block
    column 0; the weight and bias windows stay at block (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_8.index t (0 : Fin 2) = t.val ∧ win0_8.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem point_lt (t : Fin cfg0.N) : t.val < 25 := by
  have h := t.isLt
  have hN : cfg0.N = 25 := N_0
  omega

/-! Reading ANY contents of an array through a window's block. -/

/-- Entry (p, k) of window 0's block at point t is entry (2000 t + p, k) of whatever its array holds. -/
theorem row_read0 (t : Fin cfg0.N) (X : FVec Ideal S50000x64 .f32) (p : Fin 2000) (k : Fin 64) (r : Fin 50000)
    (hr : r.val = 2000 * t.val + p.val) :
    ((cfg0.win 0).blk t).view.read (Elt Ideal) X (ix2 p k) = X (ix2 r k) := by
  show X (((cfg0.win 0).blk t).view.emb (ix2 p k)) = X (ix2 r k)
  obtain ⟨e0, e1⟩ := (block_indices t).1
  have h : ((cfg0.win 0).blk t).view.emb (ix2 p k) = ix2 r k := by
    funext a; apply Fin.ext
    match a with
    | ⟨0, _⟩ => show win0_0.index t (0 : Fin 2) * 2000 + 1 * p.val = r.val; omega
    | ⟨1, _⟩ => show win0_0.index t (1 : Fin 2) * 64 + 1 * k.val = k.val; omega
  rw [h]

/-- Entry (p, k) of window 1's block at point t is entry (2000 t + p, k) of whatever its array holds. -/
theorem row_read1 (t : Fin cfg0.N) (X : FVec Ideal S50000x64 .f32) (p : Fin 2000) (k : Fin 64) (r : Fin 50000)
    (hr : r.val = 2000 * t.val + p.val) :
    ((cfg0.win 1).blk t).view.read (Elt Ideal) X (ix2 p k) = X (ix2 r k) := by
  show X (((cfg0.win 1).blk t).view.emb (ix2 p k)) = X (ix2 r k)
  obtain ⟨e0, e1⟩ := (block_indices t).2.1
  have h : ((cfg0.win 1).blk t).view.emb (ix2 p k) = ix2 r k := by
    funext a; apply Fin.ext
    match a with
    | ⟨0, _⟩ => show win0_1.index t (0 : Fin 2) * 2000 + 1 * p.val = r.val; omega
    | ⟨1, _⟩ => show win0_1.index t (1 : Fin 2) * 64 + 1 * k.val = k.val; omega
  rw [h]

/-- Window 2's block at any point is its whole array: reading any contents through it gives them back. -/
theorem whole_read2 (t : Fin cfg0.N) (X : FVec Ideal S128x64 .f32) :
    ((cfg0.win 2).blk t).view.read (Elt Ideal) X = X := by
  funext y
  show X (((cfg0.win 2).blk t).view.emb y) = X y
  obtain ⟨e0, e1⟩ := (block_indices t).2.2.2.1
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 64 + 1 * (y 1).val = (y 1).val; omega
  rw [h]

/-- Window 3's block at any point is its whole array: reading any contents through it gives them back. -/
theorem whole_read3 (t : Fin cfg0.N) (X : FVec Ideal S1x64 .f32) :
    ((cfg0.win 3).blk t).view.read (Elt Ideal) X = X := by
  funext y
  show X (((cfg0.win 3).blk t).view.emb y) = X y
  obtain ⟨e0, e1⟩ := (block_indices t).2.2.2.2.1
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 64 + 1 * (y 1).val = (y 1).val; omega
  rw [h]

/-- Window 4's block at any point is its whole array: reading any contents through it gives them back. -/
theorem whole_read4 (t : Fin cfg0.N) (X : FVec Ideal S64x64 .f32) :
    ((cfg0.win 4).blk t).view.read (Elt Ideal) X = X := by
  funext y
  show X (((cfg0.win 4).blk t).view.emb y) = X y
  obtain ⟨e0, e1⟩ := (block_indices t).2.2.2.2.2.1
  have h : ((cfg0.win 4).blk t).view.emb y = y := by
    funext a; apply Fin.ext
    match a with
    | ⟨0, _⟩ => show win0_4.index t (0 : Fin 2) * 64 + 1 * (y 0).val = (y 0).val; omega
    | ⟨1, _⟩ => show win0_4.index t (1 : Fin 2) * 64 + 1 * (y 1).val = (y 1).val; omega
  rw [h]

/-- Window 5's block at any point is its whole array: reading any contents through it gives them back. -/
theorem whole_read5 (t : Fin cfg0.N) (X : FVec Ideal S1x64 .f32) :
    ((cfg0.win 5).blk t).view.read (Elt Ideal) X = X := by
  funext y
  show X (((cfg0.win 5).blk t).view.emb y) = X y
  obtain ⟨e0, e1⟩ := (block_indices t).2.2.2.2.2.2.1
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 64 + 1 * (y 1).val = (y 1).val; omega
  rw [h]

/-- Window 6's block at any point is its whole array: reading any contents through it gives them back. -/
theorem whole_read6 (t : Fin cfg0.N) (X : FVec Ideal S64x64 .f32) :
    ((cfg0.win 6).blk t).view.read (Elt Ideal) X = X := by
  funext y
  show X (((cfg0.win 6).blk t).view.emb y) = X y
  obtain ⟨e0, e1⟩ := (block_indices t).2.2.2.2.2.2.2.1
  have h : ((cfg0.win 6).blk t).view.emb y = y := by
    funext a; apply Fin.ext
    match a with
    | ⟨0, _⟩ => show win0_6.index t (0 : Fin 2) * 64 + 1 * (y 0).val = (y 0).val; omega
    | ⟨1, _⟩ => show win0_6.index t (1 : Fin 2) * 64 + 1 * (y 1).val = (y 1).val; omega
  rw [h]

/-- Window 7's block at any point is its whole array: reading any contents through it gives them back. -/
theorem whole_read7 (t : Fin cfg0.N) (X : FVec Ideal S1x64 .f32) :
    ((cfg0.win 7).blk t).view.read (Elt Ideal) X = X := by
  funext y
  show X (((cfg0.win 7).blk t).view.emb y) = X y
  obtain ⟨e0, e1⟩ := (block_indices t).2.2.2.2.2.2.2.2
  have h : ((cfg0.win 7).blk t).view.emb y = y := by
    funext a; apply Fin.ext
    match a with
    | ⟨0, _⟩ => show win0_7.index t (0 : Fin 2) * 1 + 1 * (y 0).val = (y 0).val; omega
    | ⟨1, _⟩ => show win0_7.index t (1 : Fin 2) * 64 + 1 * (y 1).val = (y 1).val; omega
  rw [h]

/-- Contents P of the output block, cut to what point t writes back, are block t of an array G as soon as entry
    (p, q) of P is entry (2000 t + p, q) of G. -/
theorem writes_block (t : Fin cfg0.N) (P : Vec Ideal S2000x64 .f32) (G : FVec Ideal S50000x64 .f32)
    (h : ∀ (p : Fin 2000) (q : Fin 64) (r : Fin 50000), r.val = 2000 * t.val + p.val → P (ix2 p q) = G (ix2 r q)) :
    (cfg0.win 8).cut (grid0.coords t) P = ((cfg0.win 8).blk t).view.read (Elt Ideal) G := by
  funext j
  obtain ⟨p, q, rfl⟩ : ∃ (p : Fin 2000) (q : Fin 64), j = ix2 p q := ⟨j 0, j 1, eq_ix2 j⟩
  have ht := point_lt t
  have hp := p.isLt
  obtain ⟨e0, e1⟩ := (block_indices t).2.2.1
  show P (ix2 p q) = G (((cfg0.win 8).blk t).view.emb (ix2 p q))
  have hemb : ((cfg0.win 8).blk t).view.emb (ix2 p q) = ix2 (⟨2000 * t.val + p.val, by omega⟩ : Fin 50000) q := by
    funext a; apply Fin.ext
    match a with
    | ⟨0, _⟩ => show win0_8.index t (0 : Fin 2) * 2000 + 1 * p.val = 2000 * t.val + p.val; omega
    | ⟨1, _⟩ => show win0_8.index t (1 : Fin 2) * 64 + 1 * q.val = q.val; omega
  rw [hemb]
  exact h p q _ rfl

/-! The blocks of the arrays the region finds. -/

/-- Entry (p, k) of the aggregate's block at point t is entry (2000 t + p, k) of the aggregate. -/
theorem aggregate_block (c : Dev nD) (t : Fin cfg0.N) (p : Fin 2000) (k : Fin 64) (r : Fin 50000)
    (hr : r.val = 2000 * t.val + p.val) :
    (iblk m c 0 t : Vec Ideal S2000x64 .f32) (ix2 p k)
      = Cert.MlpRows.aggregate (m ((c : Thread nD τ).loc main_arg1)) (m ((c : Thread nD τ).loc main_arg2)) (ix2 r k) := by
  unfold iblk
  exact (row_read0 t (V m c main_v13) p k r hr).trans (congrFun (found_aggregate m c) (ix2 r k))

/-- Entry (p, k) of v's block at point t is entry (2000 t + p, k) of v. -/
theorem v_block (c : Dev nD) (t : Fin cfg0.N) (p : Fin 2000) (k : Fin 64) (r : Fin 50000)
    (hr : r.val = 2000 * t.val + p.val) :
    (iblk m c 1 t : Vec Ideal S2000x64 .f32) (ix2 p k)
      = (m ((c : Thread nD τ).loc main_arg0) : FVec Ideal S50000x64 .f32) (ix2 r k) := by
  unfold iblk
  exact (row_read1 t (V m c main_arg0) p k r hr).trans (congrFun (V_main_arg0 m c) (ix2 r k))

theorem w0_block (c : Dev nD) (t : Fin cfg0.N) :
    (iblk m c 2 t : Vec Ideal S128x64 .f32) = (m ((c : Thread nD τ).loc main_arg3) : FVec Ideal S128x64 .f32) := by
  unfold iblk
  exact (whole_read2 t (V m c main_arg3)).trans (V_main_arg3 m c)

theorem c0_block (c : Dev nD) (t : Fin cfg0.N) :
    (iblk m c 3 t : Vec Ideal S1x64 .f32) = Cert.MlpRows.biasRow (m ((c : Thread nD τ).loc main_arg4)) := by
  unfold iblk
  exact (whole_read3 t (V m c main_v14)).trans (found_bias0 m c)

theorem w1_block (c : Dev nD) (t : Fin cfg0.N) :
    (iblk m c 4 t : Vec Ideal S64x64 .f32) = (m ((c : Thread nD τ).loc main_arg5) : FVec Ideal S64x64 .f32) := by
  unfold iblk
  exact (whole_read4 t (V m c main_arg5)).trans (V_main_arg5 m c)

theorem c1_block (c : Dev nD) (t : Fin cfg0.N) :
    (iblk m c 5 t : Vec Ideal S1x64 .f32) = Cert.MlpRows.biasRow (m ((c : Thread nD τ).loc main_arg6)) := by
  unfold iblk
  exact (whole_read5 t (V m c main_v15)).trans (found_bias1 m c)

theorem w2_block (c : Dev nD) (t : Fin cfg0.N) :
    (iblk m c 6 t : Vec Ideal S64x64 .f32) = (m ((c : Thread nD τ).loc main_arg7) : FVec Ideal S64x64 .f32) := by
  unfold iblk
  exact (whole_read6 t (V m c main_arg7)).trans (V_main_arg7 m c)

theorem c2_block (c : Dev nD) (t : Fin cfg0.N) :
    (iblk m c 7 t : Vec Ideal S1x64 .f32) = Cert.MlpRows.biasRow (m ((c : Thread nD τ).loc main_arg8)) := by
  unfold iblk
  exact (whole_read7 t (V m c main_v16)).trans (found_bias2 m c)

/-! ## What a point writes back, the cover, the array -/

/-- What point t writes back is block t of the reference's result. -/
theorem flushed_eq (c : Dev nD) (t : Fin cfg0.N) :
    (dats m 0 c).flushed 8 t = ((cfg0.win 8).blk t).view.read (Elt Ideal) (expected m c) := by
  rw [Cert.KernelIdeal.Value.flushed8]
  unfold out0_8
  rw [View.canon_unit_zero zero_offsets]
  simp only [View.ld_unit_zero (S := S2000x64) zero_offsets, View.ld_unit_zero (S := S128x64) zero_offsets,
    View.ld_unit_zero (S := S64x64) zero_offsets, View.ld_unit_zero (S := S1x64) zero_offsets]
  exact writes_block t
    (k0_pay1 (F := Ideal) (iblk m c 0 t) (iblk m c 1 t) (iblk m c 2 t) (iblk m c 4 t) (iblk m c 6 t) (iblk m c 3 t) (iblk m c 5 t) (iblk m c 7 t))
    (expected m c)
    (fun p q r hr => Cert.MlpRows.block_entry (iblk m c 0 t) (iblk m c 1 t) (iblk m c 2 t) (iblk m c 4 t) (iblk m c 6 t)
      (iblk m c 3 t) (iblk m c 5 t) (iblk m c 7 t)
      (Cert.MlpRows.aggregate (m ((c : Thread nD τ).loc main_arg1)) (m ((c : Thread nD τ).loc main_arg2)))
      (m ((c : Thread nD τ).loc main_arg0))
      (m ((c : Thread nD τ).loc main_arg3)) (m ((c : Thread nD τ).loc main_arg5)) (m ((c : Thread nD τ).loc main_arg7))
      (Cert.MlpRows.biasRow (m ((c : Thread nD τ).loc main_arg4))) (Cert.MlpRows.biasRow (m ((c : Thread nD τ).loc main_arg6)))
      (Cert.MlpRows.biasRow (m ((c : Thread nD τ).loc main_arg8)))
      (w0_block m c t) (w1_block m c t) (w2_block m c t) (c0_block m c t) (c1_block m c t) (c2_block m c t)
      p r (fun k => aggregate_block m c t p k r hr) (fun k => v_block m c t p k r hr) q)

/-- Row r lies in the block of point r / 2000: the 25 blocks cover the array, which ends holding the reference's
    result. -/
theorem final (c : Dev nD) : (dats m 0 c).arrAt 8 cfg0.N = expected m c :=
  (dats m 0 c).arrAt_eq_of_cover 8 (expected m c) (fun t _ => flushed_eq m c t) fun i => by
    have hi0 : (i 0).val < 50000 := (i 0).isLt
    have hi1 : (i 1).val < 64 := (i 1).isLt
    have hN : cfg0.N = 25 := N_0
    let t : Fin cfg0.N := ⟨(i 0).val / 2000, by omega⟩
    obtain ⟨-, -, ⟨e0, e1⟩, -⟩ := block_indices t
    have et : t.val = (i 0).val / 2000 := rfl
    refine ⟨t, flush0_8 t, ?_⟩
    show i ∈ ((View.whole main_v17).slice (win0_8.rect t)).set
    rw [View.set_slice_whole, Rect.mem_set_unit]
    intro a
    match a with
    | ⟨0, _⟩ =>
      show win0_8.index t (0 : Fin 2) * 2000 ≤ (i 0).val ∧ (i 0).val < win0_8.index t (0 : Fin 2) * 2000 + 2000
      omega
    | ⟨1, _⟩ =>
      show win0_8.index t (1 : Fin 2) * 64 ≤ (i 1).val ∧ (i 1).val < win0_8.index t (1 : Fin 2) * 64 + 64
      omega

/-- The kernel's run: the result array ends at the reference's result of the arguments, the arguments unchanged. -/
theorem run : θ_run defs (onTc (τ := τ) (main (F := Ideal))) ⟨m, fun _ => 0, ρ⟩ fun r => ∀ c : Dev nD,
      r.2.mem ((c : Thread nD τ).loc main_v17) = expected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.MlpArray

end
-- ==== Proof.lean ====
/-
  A message-passing node update: the kernel against its jnp reference, over the extended reals.

  Both programs compute, for every node r of 50000,

      out(r, ·) = L2 (relu (L1 (relu (L0 (mean(r, ·) ++ v(r, ·)))))),    Li x = x · Wi + bi,

  where mean(r, ·) is the sum of the edge-feature rows whose receiver is r, divided by max(number of such edges, 1).
  Both form the mean by the same host operations. The reference then applies the three layers to the whole
  [50000, 64] arrays; the kernel applies them to 25 blocks of 2000 consecutive rows, on the matrix unit with the
  operands narrowed on the way in, which is the identity on the extended reals. A layer acts on each row by itself and
  both sides add up each product in the same order, so no algebraic law beyond reading each operation at an entry is
  needed, and finiteness of the inputs is never used.

  Proof/MlpRows.lean names the reference's result as a function of the nine arguments and shows the block body equal
  to it entry by entry; Proof/MlpArray.lean carries that from the 25 blocks to the whole result array and states the
  kernel's run. Here the two runs are set side by side. The three frames are the generated ones (the reference's is
  its generated run with the result dropped), and nothing was rewritten when the kernel was idealized.
-/
import proofs.«109640_j20358144983598_1_alg».proof.Defs
import proofs.«109640_j20358144983598_1_alg».proof.Proof.Gen.Kernel
import proofs.«109640_j20358144983598_1_alg».proof.Proof.Gen.Kernel.Skeleton
import proofs.«109640_j20358144983598_1_alg».proof.Proof.Gen.Kernel.Launch
import proofs.«109640_j20358144983598_1_alg».proof.Proof.Gen.Kernel.Points
import proofs.«109640_j20358144983598_1_alg».proof.Proof.Gen.Kernel.Frame
import proofs.«109640_j20358144983598_1_alg».proof.Proof.Gen.KernelIdeal
import proofs.«109640_j20358144983598_1_alg».proof.Proof.Gen.KernelIdeal.Skeleton
import proofs.«109640_j20358144983598_1_alg».proof.Proof.Gen.KernelIdeal.Launch
import proofs.«109640_j20358144983598_1_alg».proof.Proof.Gen.KernelIdeal.Points
import proofs.«109640_j20358144983598_1_alg».proof.Proof.Gen.KernelIdeal.Frame
import proofs.«109640_j20358144983598_1_alg».proof.Proof.Gen.ReferenceIdeal
import proofs.«109640_j20358144983598_1_alg».proof.Proof.Gen.Pre_finite_inputs
import proofs.«109640_j20358144983598_1_alg».proof.Proof.Gen.KernelIdeal.Value
import proofs.«109640_j20358144983598_1_alg».proof.Proof.Gen.ReferenceIdeal.Run
import proofs.«109640_j20358144983598_1_alg».proof.Proof.MlpArray
import Idealize.ShloMosaic.Adequacy
import Idealize.ShloMosaic.Init

noncomputable section

namespace Cert.Proof

open Idealize.ShloMosaic Idealize.SL.Sem

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments, the kernel's result array ends at the reference's result of the
    kernel's arguments (Proof/MlpArray.lean), and the reference's at the same function of its own arguments, which
    are the kernel's. -/
theorem algebraic : Cert.algebraic_KernelIdeal_ReferenceIdeal := by
  intro m ρ m' ρ' _ hagree
  refine ⟨fun c => Cert.MlpArray.expected m c, Cert.MlpArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
